-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x512 : Shape := ⟨4, ![32, 4, 512, 512]⟩
abbrev S4x1x3x3 : Shape := ⟨4, ![4, 1, 3, 3]⟩
abbrev S_ : Shape := ⟨0, ![]⟩

class Facts : Prop where
  bcast_S_S32x4x512x512 : S_.BroadcastsInDim S32x4x512x512 (![] : Fin 0 → Fin S32x4x512x512.rank)
  reducesTo_S32x4x512x512_S_d0_1_2_3 : S32x4x512x512.ReducesTo [0, 1, 2, 3] S_
  h_S_ : 0 < S_.numel
  bcast_S_S4x1x3x3 : S_.BroadcastsInDim S4x1x3x3 (![] : Fin 0 → Fin S4x1x3x3.rank)
  reducesTo_S4x1x3x3_S_d0_1_2_3 : S4x1x3x3.ReducesTo [0, 1, 2, 3] S_

variable [Facts]

def fn {F : FTy → Type} [FloatOps F] (main_arg0 : FVec F S32x4x512x512 .f32) (main_arg1 : FVec F S4x1x3x3 .f32) : IVec S_ 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  let main_c : IVec S_ 1 := constantI S_ 1 1#1
  let main_v3 : IVec S_ 1 := (fun x v => Host.reduce IntOp.andi x v reducesTo_S32x4x512x512_S_d0_1_2_3 h_S_) main_v2 main_c
  let main_v4 : FVec F S4x1x3x3 .f32 := Host.absf main_arg1
  let main_cst_0 : FVec F S_ .f32 := constant S_ .f32 0x7F800000#32
  let main_v5 : FVec F S4x1x3x3 .f32 := broadcastInDim S4x1x3x3 ![] bcast_S_S4x1x3x3 main_cst_0
  let main_v6 : IVec S4x1x3x3 1 := cmpf .olt main_v4 main_v5
  let main_c_1 : IVec S_ 1 := constantI S_ 1 1#1
  let main_v7 : IVec S_ 1 := (fun x v => Host.reduce IntOp.andi x v reducesTo_S4x1x3x3_S_d0_1_2_3 h_S_) main_v6 main_c_1
  let main_v8 : IVec S_ 1 := andi main_v3 main_v7
  main_v8
-- ==== Kernel.lean ====
abbrev S32x4x512x512 : Shape := ⟨4, ![32, 4, 512, 512]⟩
abbrev S4x1x3x3 : Shape := ⟨4, ![4, 1, 3, 3]⟩
abbrev S1x4x512x512 : Shape := ⟨4, ![1, 4, 512, 512]⟩
abbrev S1x1x512x512 : Shape := ⟨4, ![1, 1, 512, 512]⟩
abbrev S512x512 : Shape := ⟨2, ![512, 512]⟩
abbrev S1x512 : Shape := ⟨2, ![1, 512]⟩
abbrev S514x512 : Shape := ⟨2, ![514, 512]⟩
abbrev S514x1 : Shape := ⟨2, ![514, 1]⟩
abbrev S514x514 : Shape := ⟨2, ![514, 514]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S32x4x512x512, .f32⟩
  | .hbm, ⟨1, _⟩ => ⟨S4x1x3x3, .f32⟩
  | .hbm, ⟨2, _⟩ => ⟨S32x4x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S4x1x3x3, .f32⟩
  | .local _ .vmem, ⟨3, _⟩ => ⟨S1x4x512x512, .f32⟩
  | .local _ .vmem, ⟨4, _⟩ => ⟨S1x4x512x512, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4x512x512_S1x1x512x512_0_0_0_0 : ∀ a, (![0, 0, 0, 0] : Fin 4 → Nat) a + S1x1x512x512.size a ≤ S1x4x512x512.size a
  h_S1x1x512x512 : 0 < S1x1x512x512.numel
  shapeCasts_S1x1x512x512_S512x512 : S1x1x512x512.ShapeCasts S512x512
  concatenates_S1x512_S512x512_S1x512_S514x512_d0 : Shape.Concatenates [S1x512, S512x512, S1x512] S514x512 0
  concatenates_S514x1_S514x512_S514x1_S514x514_d1 : Shape.Concatenates [S514x1, S514x512, S514x1] S514x514 1
  inb_S4x1x3x3_S1x1x1x1_0_0_0_0 : ∀ a, (![0, 0, 0, 0] : Fin 4 → Nat) a + S1x1x1x1.size a ≤ S4x1x3x3.size a
  h_S1x1x1x1 : 0 < S1x1x1x1.numel
  inpos_S1x1x1x1_p0_0_0_0 : ∀ a, (![0, 0, 0, 0] : Fin 4 → Nat) a < S1x1x1x1.size a
  slices_S514x514_o0_0_S512x512 : S514x514.Slices ![0, 0] S512x512
  inb_S4x1x3x3_S1x1x1x1_0_0_0_1 : ∀ a, (![0, 0, 0, 1] : Fin 4 → Nat) a + S1x1x1x1.size a ≤ S4x1x3x3.size a
  slices_S514x514_o0_1_S512x512 : S514x514.Slices ![0, 1] S512x512
  inb_S4x1x3x3_S1x1x1x1_0_0_0_2 : ∀ a, (![0, 0, 0, 2] : Fin 4 → Nat) a + S1x1x1x1.size a ≤ S4x1x3x3.size a
  slices_S514x514_o0_2_S512x512 : S514x514.Slices ![0, 2] S512x512
  inb_S4x1x3x3_S1x1x1x1_0_0_1_0 : ∀ a, (![0, 0, 1, 0] : Fin 4 → Nat) a + S1x1x1x1.size a ≤ S4x1x3x3.size a
  slices_S514x514_o1_0_S512x512 : S514x514.Slices ![1, 0] S512x512
  inb_S4x1x3x3_S1x1x1x1_0_0_1_1 : ∀ a, (![0, 0, 1, 1] : Fin 4 → Nat) a + S1x1x1x1.size a ≤ S4x1x3x3.size a
  slices_S514x514_o1_1_S512x512 : S514x514.Slices ![1, 1] S512x512
  inb_S4x1x3x3_S1x1x1x1_0_0_1_2 : ∀ a, (![0, 0, 1, 2] : Fin 4 → Nat) a + S1x1x1x1.size a ≤ S4x1x3x3.size a
  slices_S514x514_o1_2_S512x512 : S514x514.Slices ![1, 2] S512x512
  inb_S4x1x3x3_S1x1x1x1_0_0_2_0 : ∀ a, (![0, 0, 2, 0] : Fin 4 → Nat) a + S1x1x1x1.size a ≤ S4x1x3x3.size a
  slices_S514x514_o2_0_S512x512 : S514x514.Slices ![2, 0] S512x512
  inb_S4x1x3x3_S1x1x1x1_0_0_2_1 : ∀ a, (![0, 0, 2, 1] : Fin 4 → Nat) a + S1x1x1x1.size a ≤ S4x1x3x3.size a
  slices_S514x514_o2_1_S512x512 : S514x514.Slices ![2, 1] S512x512
  inb_S4x1x3x3_S1x1x1x1_0_0_2_2 : ∀ a, (![0, 0, 2, 2] : Fin 4 → Nat) a + S1x1x1x1.size a ≤ S4x1x3x3.size a
  slices_S514x514_o2_2_S512x512 : S514x514.Slices ![2, 2] S512x512
  shapeCasts_S512x512_S1x1x512x512 : S512x512.ShapeCasts S1x1x512x512
  inb_S1x4x512x512_S1x1x512x512_0_1_0_0 : ∀ a, (![0, 1, 0, 0] : Fin 4 → Nat) a + S1x1x512x512.size a ≤ S1x4x512x512.size a
  inb_S4x1x3x3_S1x1x1x1_1_0_0_0 : ∀ a, (![1, 0, 0, 0] : Fin 4 → Nat) a + S1x1x1x1.size a ≤ S4x1x3x3.size a
  inb_S4x1x3x3_S1x1x1x1_1_0_0_1 : ∀ a, (![1, 0, 0, 1] : Fin 4 → Nat) a + S1x1x1x1.size a ≤ S4x1x3x3.size a
  inb_S4x1x3x3_S1x1x1x1_1_0_0_2 : ∀ a, (![1, 0, 0, 2] : Fin 4 → Nat) a + S1x1x1x1.size a ≤ S4x1x3x3.size a
  inb_S4x1x3x3_S1x1x1x1_1_0_1_0 : ∀ a, (![1, 0, 1, 0] : Fin 4 → Nat) a + S1x1x1x1.size a ≤ S4x1x3x3.size a
  inb_S4x1x3x3_S1x1x1x1_1_0_1_1 : ∀ a, (![1, 0, 1, 1] : Fin 4 → Nat) a + S1x1x1x1.size a ≤ S4x1x3x3.size a
  inb_S4x1x3x3_S1x1x1x1_1_0_1_2 : ∀ a, (![1, 0, 1, 2] : Fin 4 → Nat) a + S1x1x1x1.size a ≤ S4x1x3x3.size a
  inb_S4x1x3x3_S1x1x1x1_1_0_2_0 : ∀ a, (![1, 0, 2, 0] : Fin 4 → Nat) a + S1x1x1x1.size a ≤ S4x1x3x3.size a
  inb_S4x1x3x3_S1x1x1x1_1_0_2_1 : ∀ a, (![1, 0, 2, 1] : Fin 4 → Nat) a + S1x1x1x1.size a ≤ S4x1x3x3.size a
  inb_S4x1x3x3_S1x1x1x1_1_0_2_2 : ∀ a, (![1, 0, 2, 2] : Fin 4 → Nat) a + S1x1x1x1.size a ≤ S4x1x3x3.size a
  inb_S1x4x512x512_S1x1x512x512_0_2_0_0 : ∀ a, (![0, 2, 0, 0] : Fin 4 → Nat) a + S1x1x512x512.size a ≤ S1x4x512x512.size a
  inb_S4x1x3x3_S1x1x1x1_2_0_0_0 : ∀ a, (![2, 0, 0, 0] : Fin 4 → Nat) a + S1x1x1x1.size a ≤ S4x1x3x3.size a
  inb_S4x1x3x3_S1x1x1x1_2_0_0_1 : ∀ a, (![2, 0, 0, 1] : Fin 4 → Nat) a + S1x1x1x1.size a ≤ S4x1x3x3.size a
  inb_S4x1x3x3_S1x1x1x1_2_0_0_2 : ∀ a, (![2, 0, 0, 2] : Fin 4 → Nat) a + S1x1x1x1.size a ≤ S4x1x3x3.size a
  inb_S4x1x3x3_S1x1x1x1_2_0_1_0 : ∀ a, (![2, 0, 1, 0] : Fin 4 → Nat) a + S1x1x1x1.size a ≤ S4x1x3x3.size a
  inb_S4x1x3x3_S1x1x1x1_2_0_1_1 : ∀ a, (![2, 0, 1, 1] : Fin 4 → Nat) a + S1x1x1x1.size a ≤ S4x1x3x3.size a
  inb_S4x1x3x3_S1x1x1x1_2_0_1_2 : ∀ a, (![2, 0, 1, 2] : Fin 4 → Nat) a + S1x1x1x1.size a ≤ S4x1x3x3.size a
  inb_S4x1x3x3_S1x1x1x1_2_0_2_0 : ∀ a, (![2, 0, 2, 0] : Fin 4 → Nat) a + S1x1x1x1.size a ≤ S4x1x3x3.size a
  inb_S4x1x3x3_S1x1x1x1_2_0_2_1 : ∀ a, (![2, 0, 2, 1] : Fin 4 → Nat) a + S1x1x1x1.size a ≤ S4x1x3x3.size a
  inb_S4x1x3x3_S1x1x1x1_2_0_2_2 : ∀ a, (![2, 0, 2, 2] : Fin 4 → Nat) a + S1x1x1x1.size a ≤ S4x1x3x3.size a
  inb_S1x4x512x512_S1x1x512x512_0_3_0_0 : ∀ a, (![0, 3, 0, 0] : Fin 4 → Nat) a + S1x1x512x512.size a ≤ S1x4x512x512.size a
  inb_S4x1x3x3_S1x1x1x1_3_0_0_0 : ∀ a, (![3, 0, 0, 0] : Fin 4 → Nat) a + S1x1x1x1.size a ≤ S4x1x3x3.size a
  inb_S4x1x3x3_S1x1x1x1_3_0_0_1 : ∀ a, (![3, 0, 0, 1] : Fin 4 → Nat) a + S1x1x1x1.size a ≤ S4x1x3x3.size a
  inb_S4x1x3x3_S1x1x1x1_3_0_0_2 : ∀ a, (![3, 0, 0, 2] : Fin 4 → Nat) a + S1x1x1x1.size a ≤ S4x1x3x3.size a
  inb_S4x1x3x3_S1x1x1x1_3_0_1_0 : ∀ a, (![3, 0, 1, 0] : Fin 4 → Nat) a + S1x1x1x1.size a ≤ S4x1x3x3.size a
  inb_S4x1x3x3_S1x1x1x1_3_0_1_1 : ∀ a, (![3, 0, 1, 1] : Fin 4 → Nat) a + S1x1x1x1.size a ≤ S4x1x3x3.size a
  inb_S4x1x3x3_S1x1x1x1_3_0_1_2 : ∀ a, (![3, 0, 1, 2] : Fin 4 → Nat) a + S1x1x1x1.size a ≤ S4x1x3x3.size a
  inb_S4x1x3x3_S1x1x1x1_3_0_2_0 : ∀ a, (![3, 0, 2, 0] : Fin 4 → Nat) a + S1x1x1x1.size a ≤ S4x1x3x3.size a
  inb_S4x1x3x3_S1x1x1x1_3_0_2_1 : ∀ a, (![3, 0, 2, 1] : Fin 4 → Nat) a + S1x1x1x1.size a ≤ S4x1x3x3.size a
  inb_S4x1x3x3_S1x1x1x1_3_0_2_2 : ∀ a, (![3, 0, 2, 2] : Fin 4 → Nat) a + S1x1x1x1.size a ≤ S4x1x3x3.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S32x4x512x512.size a
  hwx0_0 : ∀ i : grid0.Coords, EltTy.bits .f32 = 32 ∨ (Rect.block (s := S32x4x512x512) S1x4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x3x3.size a ≤ S4x1x3x3.size a
  hwx0_1 : ∀ i : grid0.Coords, EltTy.bits .f32 = 32 ∨ (Rect.block (s := S4x1x3x3) S4x1x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x512x512.size a ≤ S32x4x512x512.size a
  hwx0_2 : ∀ i : grid0.Coords, EltTy.bits .f32 = 32 ∨ (Rect.block (s := S32x4x512x512) S1x4x512x512.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4x512x512 : Shape := ⟨4, ![32, 4, 512, 512]⟩
abbrev S4x1x3x3 : Shape := ⟨4, ![4, 1, 3, 3]⟩
abbrev S_ : Shape := ⟨0, ![]⟩
abbrev S32x4x514x514 : Shape := ⟨4, ![32, 4, 514, 514]⟩
abbrev S4x1x1x1 : Shape := ⟨4, ![4, 1, 1, 1]⟩
abbrev S4 : Shape := ⟨1, ![4]⟩
abbrev S1x4x1x1 : Shape := ⟨4, ![1, 4, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S32x4x512x512, .f32⟩
  | .hbm, ⟨1, _⟩ => ⟨S4x1x3x3, .f32⟩
  | .hbm, ⟨2, _⟩ => ⟨S_, .i32⟩
  | .hbm, ⟨3, _⟩ => ⟨S_, .f32⟩
  | .hbm, ⟨4, _⟩ => ⟨S32x4x514x514, .f32⟩
  | .hbm, ⟨5, _⟩ => ⟨S_, .f32⟩
  | .hbm, ⟨6, _⟩ => ⟨S32x4x512x512, .f32⟩
  | .hbm, ⟨7, _⟩ => ⟨S4x1x1x1, .f32⟩
  | .hbm, ⟨8, _⟩ => ⟨S4, .f32⟩
  | .hbm, ⟨9, _⟩ => ⟨S1x4x1x1, .f32⟩
  | .hbm, ⟨10, _⟩ => ⟨S32x4x512x512, .f32⟩
  | .hbm, ⟨11, _⟩ => ⟨S32x4x512x512, .f32⟩
  | .hbm, ⟨12, _⟩ => ⟨S32x4x512x512, .f32⟩
  | .hbm, ⟨13, _⟩ => ⟨S32x4x512x512, .f32⟩
  | .hbm, ⟨14, _⟩ => ⟨S32x4x512x512, .f32⟩
  | .hbm, ⟨15, _⟩ => ⟨S4x1x1x1, .f32⟩
  | .hbm, ⟨16, _⟩ => ⟨S4, .f32⟩
  | .hbm, ⟨17, _⟩ => ⟨S1x4x1x1, .f32⟩
  | .hbm, ⟨18, _⟩ => ⟨S32x4x512x512, .f32⟩
  | .hbm, ⟨19, _⟩ => ⟨S32x4x512x512, .f32⟩
  | .hbm, ⟨20, _⟩ => ⟨S32x4x512x512, .f32⟩
  | .hbm, ⟨21, _⟩ => ⟨S32x4x512x512, .f32⟩
  | .hbm, ⟨22, _⟩ => ⟨S32x4x512x512, .f32⟩
  | .hbm, ⟨23, _⟩ => ⟨S4x1x1x1, .f32⟩
  | .hbm, ⟨24, _⟩ => ⟨S4, .f32⟩
  | .hbm, ⟨25, _⟩ => ⟨S1x4x1x1, .f32⟩
  | .hbm, ⟨26, _⟩ => ⟨S32x4x512x512, .f32⟩
  | .hbm, ⟨27, _⟩ => ⟨S32x4x512x512, .f32⟩
  | .hbm, ⟨28, _⟩ => ⟨S32x4x512x512, .f32⟩
  | .hbm, ⟨29, _⟩ => ⟨S32x4x512x512, .f32⟩
  | .hbm, ⟨30, _⟩ => ⟨S32x4x512x512, .f32⟩
  | .hbm, ⟨31, _⟩ => ⟨S4x1x1x1, .f32⟩
  | .hbm, ⟨32, _⟩ => ⟨S4, .f32⟩
  | .hbm, ⟨33, _⟩ => ⟨S1x4x1x1, .f32⟩
  | .hbm, ⟨34, _⟩ => ⟨S32x4x512x512, .f32⟩
  | .hbm, ⟨35, _⟩ => ⟨S32x4x512x512, .f32⟩
  | .hbm, ⟨36, _⟩ => ⟨S32x4x512x512, .f32⟩
  | .hbm, ⟨37, _⟩ => ⟨S32x4x512x512, .f32⟩
  | .hbm, ⟨38, _⟩ => ⟨S32x4x512x512, .f32⟩
  | .hbm, ⟨39, _⟩ => ⟨S4x1x1x1, .f32⟩
  | .hbm, ⟨40, _⟩ => ⟨S4, .f32⟩
  | .hbm, ⟨41, _⟩ => ⟨S1x4x1x1, .f32⟩
  | .hbm, ⟨42, _⟩ => ⟨S32x4x512x512, .f32⟩
  | .hbm, ⟨43, _⟩ => ⟨S32x4x512x512, .f32⟩
  | .hbm, ⟨44, _⟩ => ⟨S32x4x512x512, .f32⟩
  | .hbm, ⟨45, _⟩ => ⟨S32x4x512x512, .f32⟩
  | .hbm, ⟨46, _⟩ => ⟨S32x4x512x512, .f32⟩
  | .hbm, ⟨47, _⟩ => ⟨S4x1x1x1, .f32⟩
  | .hbm, ⟨48, _⟩ => ⟨S4, .f32⟩
  | .hbm, ⟨49, _⟩ => ⟨S1x4x1x1, .f32⟩
  | .hbm, ⟨50, _⟩ => ⟨S32x4x512x512, .f32⟩
  | .hbm, ⟨51, _⟩ => ⟨S32x4x512x512, .f32⟩
  | .hbm, ⟨52, _⟩ => ⟨S32x4x512x512, .f32⟩
  | .hbm, ⟨53, _⟩ => ⟨S32x4x512x512, .f32⟩
  | .hbm, ⟨54, _⟩ => ⟨S32x4x512x512, .f32⟩
  | .hbm, ⟨55, _⟩ => ⟨S4x1x1x1, .f32⟩
  | .hbm, ⟨56, _⟩ => ⟨S4, .f32⟩
  | .hbm, ⟨57, _⟩ => ⟨S1x4x1x1, .f32⟩
  | .hbm, ⟨58, _⟩ => ⟨S32x4x512x512, .f32⟩
  | .hbm, ⟨59, _⟩ => ⟨S32x4x512x512, .f32⟩
  | .hbm, ⟨60, _⟩ => ⟨S32x4x512x512, .f32⟩
  | .hbm, ⟨61, _⟩ => ⟨S32x4x512x512, .f32⟩
  | .hbm, ⟨62, _⟩ => ⟨S32x4x512x512, .f32⟩
  | .hbm, ⟨63, _⟩ => ⟨S4x1x1x1, .f32⟩
  | .hbm, ⟨64, _⟩ => ⟨S4, .f32⟩
  | .hbm, ⟨65, _⟩ => ⟨S1x4x1x1, .f32⟩
  | .hbm, ⟨66, _⟩ => ⟨S32x4x512x512, .f32⟩
  | .hbm, ⟨67, _⟩ => ⟨S32x4x512x512, .f32⟩
  | .hbm, ⟨68, _⟩ => ⟨S32x4x512x512, .f32⟩
  | .hbm, ⟨69, _⟩ => ⟨S32x4x512x512, .f32⟩
  | .hbm, ⟨70, _⟩ => ⟨S32x4x512x512, .f32⟩
  | .hbm, ⟨71, _⟩ => ⟨S4x1x1x1, .f32⟩
  | .hbm, ⟨72, _⟩ => ⟨S4, .f32⟩
  | .hbm, ⟨73, _⟩ => ⟨S1x4x1x1, .f32⟩
  | .hbm, ⟨74, _⟩ => ⟨S32x4x512x512, .f32⟩
  | .hbm, ⟨75, _⟩ => ⟨S32x4x512x512, .f32⟩
  | .hbm, ⟨76, _⟩ => ⟨S32x4x512x512, .f32⟩
  | .hbm, ⟨77, _⟩ => ⟨S32x4x512x512, .f32⟩
  | .hbm, ⟨78, _⟩ => ⟨S32x4x512x512, .f32⟩
  | .hbm, ⟨79, _⟩ => ⟨S32x4x512x512, .f32⟩
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S32x4x512x512_S32x4x514x514_000_000_110_110 : S32x4x512x512.Pads (![0, 0, 1, 1] : Fin 4 → Nat) ![0, 0, 1, 1] ![0, 0, 0, 0] S32x4x514x514
  h_S_ : 0 < S_.numel
  bcast_S_S32x4x512x512 : S_.BroadcastsInDim S32x4x512x512 (![] : Fin 0 → Fin S32x4x512x512.rank)
  slices_S4x1x3x3_S4x1x1x1_0_0_0_0 : S4x1x3x3.Slices ![0, 0, 0, 0] S4x1x1x1
  shapeCasts_S4x1x1x1_S4 : S4x1x1x1.ShapeCasts S4
  bcast_S4_S1x4x1x1_1 : S4.BroadcastsInDim S1x4x1x1 (![1] : Fin 1 → Fin S1x4x1x1.rank)
  slices_S32x4x514x514_S32x4x512x512_0_0_0_0 : S32x4x514x514.Slices ![0, 0, 0, 0] S32x4x512x512
  bcast_S1x4x1x1_S32x4x512x512_0_1_2_3 : S1x4x1x1.BroadcastsInDim S32x4x512x512 (![0, 1, 2, 3] : Fin 4 → Fin S32x4x512x512.rank)
  slices_S4x1x3x3_S4x1x1x1_0_0_0_1 : S4x1x3x3.Slices ![0, 0, 0, 1] S4x1x1x1
  slices_S32x4x514x514_S32x4x512x512_0_0_0_1 : S32x4x514x514.Slices ![0, 0, 0, 1] S32x4x512x512
  slices_S4x1x3x3_S4x1x1x1_0_0_0_2 : S4x1x3x3.Slices ![0, 0, 0, 2] S4x1x1x1
  slices_S32x4x514x514_S32x4x512x512_0_0_0_2 : S32x4x514x514.Slices ![0, 0, 0, 2] S32x4x512x512
  slices_S4x1x3x3_S4x1x1x1_0_0_1_0 : S4x1x3x3.Slices ![0, 0, 1, 0] S4x1x1x1
  slices_S32x4x514x514_S32x4x512x512_0_0_1_0 : S32x4x514x514.Slices ![0, 0, 1, 0] S32x4x512x512
  slices_S4x1x3x3_S4x1x1x1_0_0_1_1 : S4x1x3x3.Slices ![0, 0, 1, 1] S4x1x1x1
  slices_S32x4x514x514_S32x4x512x512_0_0_1_1 : S32x4x514x514.Slices ![0, 0, 1, 1] S32x4x512x512
  slices_S4x1x3x3_S4x1x1x1_0_0_1_2 : S4x1x3x3.Slices ![0, 0, 1, 2] S4x1x1x1
  slices_S32x4x514x514_S32x4x512x512_0_0_1_2 : S32x4x514x514.Slices ![0, 0, 1, 2] S32x4x512x512
  slices_S4x1x3x3_S4x1x1x1_0_0_2_0 : S4x1x3x3.Slices ![0, 0, 2, 0] S4x1x1x1
  slices_S32x4x514x514_S32x4x512x512_0_0_2_0 : S32x4x514x514.Slices ![0, 0, 2, 0] S32x4x512x512
  slices_S4x1x3x3_S4x1x1x1_0_0_2_1 : S4x1x3x3.Slices ![0, 0, 2, 1] S4x1x1x1
  slices_S32x4x514x514_S32x4x512x512_0_0_2_1 : S32x4x514x514.Slices ![0, 0, 2, 1] S32x4x512x512
  slices_S4x1x3x3_S4x1x1x1_0_0_2_2 : S4x1x3x3.Slices ![0, 0, 2, 2] S4x1x1x1
  slices_S32x4x514x514_S32x4x512x512_0_0_2_2 : S32x4x514x514.Slices ![0, 0, 2, 2] S32x4x512x512

variable [Facts₀]

class Facts : Prop extends Facts₀ where

variable [Facts]
-- ==== Proof.BorderedTaps.lean ====
/-
  The L1-distance stencil of this certificate, as mathematics, with no program in sight.

  A plane X of 512 × 512 extended reals is given a border of one entry, filled with a value z, all the way
  round: `bordered z X r s`, for 0 ≤ r, s < 514, is X (r - 1) (s - 1) strictly inside and z on the border.
  A tap (i, j) of a 3 × 3 kernel k at the plane's entry (p, q) contributes the absolute difference
  |bordered (i + p) (j + q) - k i j|, written max d (-d) as the extended reals' absolute value is; the nine
  contributions are added to zero in row-major order of the taps, `tapSum`, and the stencil's value is the
  negative of that sum.

  Two ways of producing the bordered plane are read here at an index: two nested three-piece concatenations
  (a row of z above and below, then a column of z left and right), and a pad of a rank-four array by one
  entry on its last two axes.
-/
import Idealize.ShloMosaic.PureOps.Ideal
import Idealize.ShloMosaic.Lib.ValueIdx
import Idealize.ShloMosaic.Lib.Pipeline.Value
import Idealize.ShloMosaic.Lib.KernelVsHost

noncomputable section

namespace Cert.BorderedTaps

open Idealize.ShloMosaic Idealize.ShloMosaic.ValueIdx

abbrev SPlane : Shape := ⟨2, ![512, 512]⟩
abbrev SRowBand : Shape := ⟨2, ![1, 512]⟩
abbrev STall : Shape := ⟨2, ![514, 512]⟩
abbrev SColBand : Shape := ⟨2, ![514, 1]⟩
abbrev SWide : Shape := ⟨2, ![514, 514]⟩
abbrev SImages : Shape := ⟨4, ![32, 4, 512, 512]⟩
abbrev SImagesWide : Shape := ⟨4, ![32, 4, 514, 514]⟩
abbrev SKernels : Shape := ⟨4, ![4, 1, 3, 3]⟩

/-- The plane with a border of `z` one entry thick, as a function of the bordered coordinates. -/
def bordered (z : EReal) (X : SPlane.Idx → EReal) (r s : ℕ) : EReal :=
  if h : (1 ≤ r ∧ r ≤ 512) ∧ (1 ≤ s ∧ s ≤ 512) then X (ix2 ⟨r - 1, by omega⟩ ⟨s - 1, by omega⟩) else z

/-- The absolute difference of two extended reals. -/
def absDiff (a b : EReal) : EReal := max (a - b) (-(a - b))

/-- The nine absolute differences between a bordered plane `P` around (p, q) and a 3 × 3 kernel, added to zero
    one after the other, the taps in row-major order. -/
def tapSum (P : ℕ → ℕ → EReal) (k : Fin 3 → Fin 3 → EReal) (p q : ℕ) : EReal :=
  0 + absDiff (P (0 + p) (0 + q)) (k 0 0) + absDiff (P (0 + p) (1 + q)) (k 0 1) + absDiff (P (0 + p) (2 + q)) (k 0 2)
    + absDiff (P (1 + p) (0 + q)) (k 1 0) + absDiff (P (1 + p) (1 + q)) (k 1 1) + absDiff (P (1 + p) (2 + q)) (k 1 2)
    + absDiff (P (2 + p) (0 + q)) (k 2 0) + absDiff (P (2 + p) (1 + q)) (k 2 1) + absDiff (P (2 + p) (2 + q)) (k 2 2)

/-- Plane (b, c) of a stack of images. -/
def plane (x : SImages.Idx → EReal) (b : Fin 32) (c : Fin 4) : SPlane.Idx → EReal := fun y => x (ix4 b c (y 0) (y 1))

/-- Kernel `c` of a stack of 3 × 3 kernels. -/
def kernelOf (w : SKernels.Idx → EReal) (c : Fin 4) : Fin 3 → Fin 3 → EReal := fun i j => w (ix4 c 0 i j)

/-- THE STENCIL: entry (b, c, p, q) of the result is minus the sum of the nine absolute differences between the
    zero-bordered plane (b, c) around (p, q) and kernel c. -/
def stencil (x : SImages.Idx → EReal) (w : SKernels.Idx → EReal) : SImages.Idx → EReal := fun i =>
  -(tapSum (bordered 0 (plane x (i 0) (i 1))) (kernelOf w (i 1)) (i 2).val (i 3).val)

/-! ## The border made by two concatenations -/

/-- A row of `z` above and below a plane: row `r` of the result is row `r - 1` of the plane for 1 ≤ r ≤ 512, and `z`
    in rows 0 and 513. -/
theorem rows_apply (z : EReal) (X : SPlane.Idx → EReal) (h : Shape.Concatenates [SRowBand, SPlane, SRowBand] STall 0)
    (r : Fin 514) (q : Fin 512) :
    concatenate STall 0 [⟨SRowBand, broadcast SRowBand z⟩, ⟨SPlane, X⟩, ⟨SRowBand, broadcast SRowBand z⟩] h (ix2 r q)
      = if hr : 1 ≤ r.val ∧ r.val ≤ 512 then X (ix2 ⟨r.val - 1, by omega⟩ q) else z := by
  have hrlt : r.val < 514 := r.isLt
  by_cases hr : 1 ≤ r.val ∧ r.val ≤ 512
  · rw [dif_pos hr]
    exact concatenate_apply_piece (t := STall) (0 : Fin 2) [⟨SRowBand, broadcast SRowBand z⟩, ⟨SPlane, X⟩, ⟨SRowBand, broadcast SRowBand z⟩] h (ix2 r q) 1 (by show (1 : ℕ) < 3; omega) SPlane X rfl rfl 1 (by rfl)
      (ix2 ⟨r.val - 1, by omega⟩ q)
      (fun b hb => match b, hb with
        | ⟨0, _⟩, hb => absurd (Fin.ext rfl) hb
        | ⟨1, _⟩, _ => rfl)
      (by show 1 + (r.val - 1) = r.val; omega)
  · rw [dif_neg hr]
    by_cases h0 : r.val = 0
    · exact concatenate_apply_piece (t := STall) (0 : Fin 2) [⟨SRowBand, broadcast SRowBand z⟩, ⟨SPlane, X⟩, ⟨SRowBand, broadcast SRowBand z⟩] h (ix2 r q) 0 (by show (0 : ℕ) < 3; omega) SRowBand (broadcast SRowBand z) rfl rfl 0 (by rfl)
        (ix2 0 q)
        (fun b hb => match b, hb with
          | ⟨0, _⟩, hb => absurd (Fin.ext rfl) hb
          | ⟨1, _⟩, _ => rfl)
        (by show 0 + 0 = r.val; omega)
    · exact concatenate_apply_piece (t := STall) (0 : Fin 2) [⟨SRowBand, broadcast SRowBand z⟩, ⟨SPlane, X⟩, ⟨SRowBand, broadcast SRowBand z⟩] h (ix2 r q) 2 (by show (2 : ℕ) < 3; omega) SRowBand (broadcast SRowBand z) rfl rfl 513 (by rfl)
        (ix2 0 q)
        (fun b hb => match b, hb with
          | ⟨0, _⟩, hb => absurd (Fin.ext rfl) hb
          | ⟨1, _⟩, _ => rfl)
        (by show 513 + 0 = r.val; omega)

/-- A column of `z` left and right of a tall plane: column `s` of the result is column `s - 1` of the plane for
    1 ≤ s ≤ 512, and `z` in columns 0 and 513. -/
theorem cols_apply (z : EReal) (Y : STall.Idx → EReal) (h : Shape.Concatenates [SColBand, STall, SColBand] SWide 1)
    (r : Fin 514) (s : Fin 514) :
    concatenate SWide 1 [⟨SColBand, broadcast SColBand z⟩, ⟨STall, Y⟩, ⟨SColBand, broadcast SColBand z⟩] h (ix2 r s)
      = if hs : 1 ≤ s.val ∧ s.val ≤ 512 then Y (ix2 r ⟨s.val - 1, by omega⟩) else z := by
  have hslt : s.val < 514 := s.isLt
  by_cases hs : 1 ≤ s.val ∧ s.val ≤ 512
  · rw [dif_pos hs]
    exact concatenate_apply_piece (t := SWide) (1 : Fin 2) [⟨SColBand, broadcast SColBand z⟩, ⟨STall, Y⟩, ⟨SColBand, broadcast SColBand z⟩] h (ix2 r s) 1 (by show (1 : ℕ) < 3; omega) STall Y rfl rfl 1 (by rfl)
      (ix2 r ⟨s.val - 1, by omega⟩)
      (fun b hb => match b, hb with
        | ⟨0, _⟩, _ => rfl
        | ⟨1, _⟩, hb => absurd (Fin.ext rfl) hb)
      (by show 1 + (s.val - 1) = s.val; omega)
  · rw [dif_neg hs]
    by_cases h0 : s.val = 0
    · exact concatenate_apply_piece (t := SWide) (1 : Fin 2) [⟨SColBand, broadcast SColBand z⟩, ⟨STall, Y⟩, ⟨SColBand, broadcast SColBand z⟩] h (ix2 r s) 0 (by show (0 : ℕ) < 3; omega) SColBand (broadcast SColBand z) rfl rfl 0 (by rfl)
        (ix2 r 0)
        (fun b hb => match b, hb with
          | ⟨0, _⟩, _ => rfl
          | ⟨1, _⟩, hb => absurd (Fin.ext rfl) hb)
        (by show 0 + 0 = s.val; omega)
    · exact concatenate_apply_piece (t := SWide) (1 : Fin 2) [⟨SColBand, broadcast SColBand z⟩, ⟨STall, Y⟩, ⟨SColBand, broadcast SColBand z⟩] h (ix2 r s) 2 (by show (2 : ℕ) < 3; omega) SColBand (broadcast SColBand z) rfl rfl 513 (by rfl)
        (ix2 r 0)
        (fun b hb => match b, hb with
          | ⟨0, _⟩, _ => rfl
          | ⟨1, _⟩, hb => absurd (Fin.ext rfl) hb)
        (by show 513 + 0 = s.val; omega)

/-- The two concatenations together make the bordered plane. -/
theorem concat_bordered (z : EReal) (X : SPlane.Idx → EReal)
    (h0 : Shape.Concatenates [SRowBand, SPlane, SRowBand] STall 0) (h1 : Shape.Concatenates [SColBand, STall, SColBand] SWide 1)
    (r : Fin 514) (s : Fin 514) :
    concatenate SWide 1 [⟨SColBand, broadcast SColBand z⟩,
        ⟨STall, concatenate STall 0 [⟨SRowBand, broadcast SRowBand z⟩, ⟨SPlane, X⟩, ⟨SRowBand, broadcast SRowBand z⟩] h0⟩,
        ⟨SColBand, broadcast SColBand z⟩] h1 (ix2 r s)
      = bordered z X r.val s.val := by
  rw [cols_apply z _ h1 r s]
  unfold bordered
  by_cases hs : 1 ≤ s.val ∧ s.val ≤ 512
  · rw [dif_pos hs, rows_apply z X h0 r ⟨s.val - 1, by omega⟩]
    by_cases hr : 1 ≤ r.val ∧ r.val ≤ 512
    · rw [dif_pos hr, dif_pos ⟨hr, hs⟩]
    · rw [dif_neg hr, dif_neg (fun hh => hr hh.1)]
  · rw [dif_neg hs, dif_neg (fun hh => hs hh.2)]

/-- A 512 × 512 window of the bordered plane at offset (i, j), read at (p, q). -/
theorem window_bordered (z : EReal) (X : SPlane.Idx → EReal)
    (h0 : Shape.Concatenates [SRowBand, SPlane, SRowBand] STall 0) (h1 : Shape.Concatenates [SColBand, STall, SColBand] SWide 1)
    (i j : ℕ) (hi : i ≤ 2) (hj : j ≤ 2) (hs : SWide.Slices ![i, j] SPlane) (p q : Fin 512) :
    extractStridedSlice SPlane ![i, j] (concatenate SWide 1 [⟨SColBand, broadcast SColBand z⟩,
        ⟨STall, concatenate STall 0 [⟨SRowBand, broadcast SRowBand z⟩, ⟨SPlane, X⟩, ⟨SRowBand, broadcast SRowBand z⟩] h0⟩,
        ⟨SColBand, broadcast SColBand z⟩] h1) hs (ix2 p q)
      = bordered z X (i + p.val) (j + q.val) := by
  have hp : p.val < 512 := p.isLt
  have hq : q.val < 512 := q.isLt
  refine (extractStridedSlice_apply ![i, j] _ hs (ix2 p q) (ix2 ⟨i + p.val, by omega⟩ ⟨j + q.val, by omega⟩)
    (fun a => match a with
      | ⟨0, _⟩ => rfl
      | ⟨1, _⟩ => rfl)).trans ?_
  exact concat_bordered z X h0 h1 ⟨i + p.val, by omega⟩ ⟨j + q.val, by omega⟩

/-! ## The border made by a pad -/

/-- A pad of a stack of images by one entry before and after its last two axes, with value `v`, read at
    (b, c, r, s): the bordered plane (b, c). -/
theorem pad_bordered (x : SImages.Idx → EReal) {u : Shape} (v : u.Idx → EReal)
    (h : SImages.Pads ![0, 0, 1, 1] ![0, 0, 1, 1] ![0, 0, 0, 0] SImagesWide) (hu : 0 < u.numel)
    (b : Fin 32) (c : Fin 4) (r s : Fin 514) :
    pad SImagesWide ![0, 0, 1, 1] ![0, 0, 1, 1] ![0, 0, 0, 0] x v h hu (ix4 b c r s)
      = bordered (v (Shape.Idx.first hu)) (plane x b c) r.val s.val := by
  have hrlt : r.val < 514 := r.isLt
  have hslt : s.val < 514 := s.isLt
  unfold bordered
  by_cases hin : (1 ≤ r.val ∧ r.val ≤ 512) ∧ (1 ≤ s.val ∧ s.val ≤ 512)
  · rw [dif_pos hin]
    exact pad_apply_of_inside ![0, 0, 1, 1] ![0, 0, 1, 1] ![0, 0, 0, 0] x v h hu (ix4 b c r s)
      (ix4 b c ⟨r.val - 1, by omega⟩ ⟨s.val - 1, by omega⟩)
      (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
  · rw [dif_neg hin]
    by_cases hr : 1 ≤ r.val ∧ r.val ≤ 512
    · have hs : ¬(1 ≤ s.val ∧ s.val ≤ 512) := fun hs => hin ⟨hr, hs⟩
      exact pad_apply_of_not_inside ![0, 0, 1, 1] ![0, 0, 1, 1] ![0, 0, 0, 0] x v h hu (ix4 b c r s) (3 : Fin 4)
        (by show ¬(1 ≤ s.val ∧ (s.val - 1) % (0 + 1) = 0 ∧ (s.val - 1) / (0 + 1) < 512); omega)
    · exact pad_apply_of_not_inside ![0, 0, 1, 1] ![0, 0, 1, 1] ![0, 0, 0, 0] x v h hu (ix4 b c r s) (2 : Fin 4)
        (by show ¬(1 ≤ r.val ∧ (r.val - 1) % (0 + 1) = 0 ∧ (r.val - 1) / (0 + 1) < 512); omega)

/-- A 512 × 512 window, at offset (i, j) on the last two axes, of a stack of images padded by one entry, read at
    (b, c, p, q): the bordered plane (b, c) at (i + p, j + q). -/
theorem pad_window (x : SImages.Idx → EReal) {u : Shape} (v : u.Idx → EReal)
    (h : SImages.Pads ![0, 0, 1, 1] ![0, 0, 1, 1] ![0, 0, 0, 0] SImagesWide) (hu : 0 < u.numel)
    (i j : ℕ) (hi : i ≤ 2) (hj : j ≤ 2) (hs : SImagesWide.Slices ![0, 0, i, j] SImages)
    (b : Fin 32) (c : Fin 4) (p q : Fin 512) :
    extractStridedSlice SImages ![0, 0, i, j] (pad SImagesWide ![0, 0, 1, 1] ![0, 0, 1, 1] ![0, 0, 0, 0] x v h hu) hs (ix4 b c p q)
      = bordered (v (Shape.Idx.first hu)) (plane x b c) (i + p.val) (j + q.val) := by
  have hp : p.val < 512 := p.isLt
  have hq : q.val < 512 := q.isLt
  refine (extractStridedSlice_apply ![0, 0, i, j] _ hs (ix4 b c p q) (ix4 b c ⟨i + p.val, by omega⟩ ⟨j + q.val, by omega⟩)
    (fun a => match a with
      | ⟨0, _⟩ => by show b.val = 0 + b.val; omega
      | ⟨1, _⟩ => by show c.val = 0 + c.val; omega
      | ⟨2, _⟩ => rfl
      | ⟨3, _⟩ => rfl)).trans ?_
  exact pad_bordered x v h hu b c ⟨i + p.val, by omega⟩ ⟨j + q.val, by omega⟩

end Cert.BorderedTaps

end
-- ==== Proof.ChannelStencil.lean ====
/-
  One channel of the kernel's body, read at an index.

  For each of its four channels the body loads the channel's 512 × 512 plane out of the image block, puts a row of
  zeros above and below it and a column of zeros left and right of it (two three-piece concatenations), and then,
  tap by tap in row-major order, takes the 512 × 512 window of the bordered plane at the tap's offset, subtracts the
  tap's entry of the channel's kernel (loaded as a 1 × 1 × 1 × 1 vector and splat), takes the absolute value and adds
  it to an accumulator that starts at zero; it stores zero minus the accumulator, as a 1 × 1 × 512 × 512 piece.
  `channel` is that computation, spelt as the body spells it, and each of the body's four stored payloads is it,
  whatever the places at which the printed body was cut into named parts. Read at (0, 0, p, q) it is minus the sum
  of the nine absolute differences between the zero-bordered plane around (p, q) and the nine loaded entries:
  zero minus a sum is its negative on all the extended reals.
-/
import proofs.«146537_j403726926589_1_alg».proof.Proof.Gen.KernelIdeal.Frame
import proofs.«146537_j403726926589_1_alg».proof.Proof.BorderedTaps
import Idealize.ShloMosaic.Lib.ValueIdx
import Idealize.ShloMosaic.Lib.Pipeline.Value

noncomputable section

namespace Cert.ChannelStencil

open Idealize.ShloMosaic Idealize.ShloMosaic.ValueIdx Cert.BorderedTaps
open Cert.KernelIdeal Cert.KernelIdeal.Gen

/-- The loaded 1 × 1 × 512 × 512 piece as a plane. -/
def planeOf (L : Vec Ideal S1x1x512x512 .f32) : FVec Ideal S512x512 .f32 :=
  shapeCast S512x512 L shapeCasts_S1x1x512x512_S512x512

/-- The plane with its border of zeros, as the body builds it. -/
def padOf (L : Vec Ideal S1x1x512x512 .f32) : FVec Ideal S514x514 .f32 :=
  concatenate S514x514 1 [⟨S514x1, broadcast S514x1 (Scalar.ofBits (F := Ideal) .f32 0x00000000#32)⟩,
    ⟨S514x512, concatenate S514x512 0 [⟨S1x512, broadcast S1x512 (Scalar.ofBits (F := Ideal) .f32 0x00000000#32)⟩, ⟨S512x512, planeOf L⟩,
      ⟨S1x512, broadcast S1x512 (Scalar.ofBits (F := Ideal) .f32 0x00000000#32)⟩] concatenates_S1x512_S512x512_S1x512_S514x512_d0⟩,
    ⟨S514x1, broadcast S514x1 (Scalar.ofBits (F := Ideal) .f32 0x00000000#32)⟩] concatenates_S514x1_S514x512_S514x1_S514x514_d1

/-- One tap: the absolute difference between the window of the bordered plane at offset `o` and the loaded entry. -/
def tapOf (L : Vec Ideal S1x1x512x512 .f32) (o : Fin 2 → ℕ) (hs : S514x514.Slices o S512x512)
    (wv : Vec Ideal S1x1x1x1 .f32) : FVec Ideal S512x512 .f32 :=
  absf (subf (extractStridedSlice S512x512 o (padOf L) hs)
    (broadcast S512x512 (extractAt ![0, 0, 0, 0] wv inpos_S1x1x1x1_p0_0_0_0)))

/-- One channel's stored piece: zero minus the nine taps added to zero in row-major order. -/
def channel (L : Vec Ideal S1x1x512x512 .f32) (w00 w01 w02 w10 w11 w12 w20 w21 w22 : Vec Ideal S1x1x1x1 .f32) :
    FVec Ideal S1x1x512x512 .f32 :=
  shapeCast S1x1x512x512
    (subf (broadcast S512x512 (Scalar.ofBits (F := Ideal) .f32 0x00000000#32))
      (addf (addf (addf (addf (addf (addf (addf (addf (addf (broadcast S512x512 (Scalar.ofBits (F := Ideal) .f32 0x00000000#32))
        (tapOf L ![0, 0] slices_S514x514_o0_0_S512x512 w00))
        (tapOf L ![0, 1] slices_S514x514_o0_1_S512x512 w01))
        (tapOf L ![0, 2] slices_S514x514_o0_2_S512x512 w02))
        (tapOf L ![1, 0] slices_S514x514_o1_0_S512x512 w10))
        (tapOf L ![1, 1] slices_S514x514_o1_1_S512x512 w11))
        (tapOf L ![1, 2] slices_S514x514_o1_2_S512x512 w12))
        (tapOf L ![2, 0] slices_S514x514_o2_0_S512x512 w20))
        (tapOf L ![2, 1] slices_S514x514_o2_1_S512x512 w21))
        (tapOf L ![2, 2] slices_S514x514_o2_2_S512x512 w22)))
    shapeCasts_S512x512_S1x1x512x512

/-! ## The body's four stored payloads are `channel` -/

theorem payload_ch0 (L : Vec Ideal S1x1x512x512 .f32) (w00 w01 w02 w10 w11 w12 w20 w21 w22 : Vec Ideal S1x1x1x1 .f32) :
    k0_pay5 (F := Ideal) (k0_pay4 (k0_pay2 L) (k0_pay3 L w00 w01 w02 w10) w11 w12 w20 w21 w22)
      = channel L w00 w01 w02 w10 w11 w12 w20 w21 w22 := rfl

theorem payload_ch1 (L : Vec Ideal S1x1x512x512 .f32) (w00 w01 w02 w10 w11 w12 w20 w21 w22 : Vec Ideal S1x1x1x1 .f32) :
    k0_pay12 (F := Ideal) (k0_pay10 (k0_pay6 L) (k0_pay7 L w00 w01 w02) (k0_pay8 L) (k0_pay9 w10) w11 w12 w20 w21 w22)
        (k0_pay11 (F := Ideal))
      = channel L w00 w01 w02 w10 w11 w12 w20 w21 w22 := rfl

theorem payload_ch2 (L : Vec Ideal S1x1x512x512 .f32) (w00 w01 w02 w10 w11 w12 w20 w21 w22 : Vec Ideal S1x1x1x1 .f32) :
    k0_pay17 (F := Ideal) (k0_pay15 (k0_pay13 L) (k0_pay14 L w00 w01 w02) w10 w11 w12 w20 w21) (k0_pay16 (k0_pay13 L) w22)
      = channel L w00 w01 w02 w10 w11 w12 w20 w21 w22 := rfl

theorem payload_ch3 (L : Vec Ideal S1x1x512x512 .f32) (w00 w01 w02 w10 w11 w12 w20 w21 w22 : Vec Ideal S1x1x1x1 .f32) :
    k0_pay1 (F := Ideal) (k0_pay18 L) (k0_pay20 (k0_pay18 L) (k0_pay19 L w00 w01 w02) w10 w11 w12 w20 w21) w22
      = channel L w00 w01 w02 w10 w11 w12 w20 w21 w22 := rfl

/-! ## `channel` at an index -/

/-- A window of the body's bordered plane, read at (p, q). -/
theorem window_apply (L : Vec Ideal S1x1x512x512 .f32) (i j : ℕ) (hi : i ≤ 2) (hj : j ≤ 2)
    (hs : S514x514.Slices ![i, j] S512x512) (p q : Fin 512) :
    extractStridedSlice S512x512 ![i, j] (padOf L) hs (ix2 p q) = bordered 0 (planeOf L) (i + p.val) (j + q.val) :=
  (window_bordered (Scalar.ofBits (F := Ideal) .f32 0x00000000#32) (planeOf L) concatenates_S1x512_S512x512_S1x512_S514x512_d0
      concatenates_S514x1_S514x512_S514x1_S514x514_d1 i j hi hj hs p q).trans
    (congrArg (fun z => bordered z (planeOf L) (i + p.val) (j + q.val)) Ideal.ofBits_zero_f32)

/-- One tap, read at (p, q). -/
theorem tapOf_apply (L : Vec Ideal S1x1x512x512 .f32) (i j : ℕ) (hi : i ≤ 2) (hj : j ≤ 2)
    (hs : S514x514.Slices ![i, j] S512x512) (wv : Vec Ideal S1x1x1x1 .f32) (p q : Fin 512) :
    tapOf L ![i, j] hs wv (ix2 p q)
      = absDiff (bordered 0 (planeOf L) (i + p.val) (j + q.val)) (extractAt ![0, 0, 0, 0] wv inpos_S1x1x1x1_p0_0_0_0) := by
  show absDiff (extractStridedSlice S512x512 ![i, j] (padOf L) hs (ix2 p q)) (extractAt ![0, 0, 0, 0] wv inpos_S1x1x1x1_p0_0_0_0) = _
  rw [window_apply L i j hi hj hs p q]

/-- ONE CHANNEL AT AN INDEX: minus the sum of the nine absolute differences between the zero-bordered plane around
    (p, q) and the nine loaded entries `k`. -/
theorem channel_apply (L : Vec Ideal S1x1x512x512 .f32) (w00 w01 w02 w10 w11 w12 w20 w21 w22 : Vec Ideal S1x1x1x1 .f32)
    (k : Fin 3 → Fin 3 → EReal)
    (h00 : extractAt ![0, 0, 0, 0] w00 inpos_S1x1x1x1_p0_0_0_0 = k 0 0)
    (h01 : extractAt ![0, 0, 0, 0] w01 inpos_S1x1x1x1_p0_0_0_0 = k 0 1)
    (h02 : extractAt ![0, 0, 0, 0] w02 inpos_S1x1x1x1_p0_0_0_0 = k 0 2)
    (h10 : extractAt ![0, 0, 0, 0] w10 inpos_S1x1x1x1_p0_0_0_0 = k 1 0)
    (h11 : extractAt ![0, 0, 0, 0] w11 inpos_S1x1x1x1_p0_0_0_0 = k 1 1)
    (h12 : extractAt ![0, 0, 0, 0] w12 inpos_S1x1x1x1_p0_0_0_0 = k 1 2)
    (h20 : extractAt ![0, 0, 0, 0] w20 inpos_S1x1x1x1_p0_0_0_0 = k 2 0)
    (h21 : extractAt ![0, 0, 0, 0] w21 inpos_S1x1x1x1_p0_0_0_0 = k 2 1)
    (h22 : extractAt ![0, 0, 0, 0] w22 inpos_S1x1x1x1_p0_0_0_0 = k 2 2)
    (p q : Fin 512) :
    channel L w00 w01 w02 w10 w11 w12 w20 w21 w22 (ix4 0 0 p q)
      = -(tapSum (bordered 0 (planeOf L)) k p.val q.val) := by
  unfold channel
  refine (shapeCast_apply _ shapeCasts_S512x512_S1x1x512x512 (ix4 0 0 p q) (ix2 p q)
    (by rw [Shape.rowMajor_val_two, Shape.rowMajor_val_four]
        show p.val * 512 + q.val = ((0 * 1 + 0) * 512 + p.val) * 512 + q.val; omega)).trans ?_
  have hz : ((Scalar.ofBits (F := Ideal) .f32 0x00000000#32) : EReal) = 0 := Ideal.ofBits_zero_f32
  calc _ = (Scalar.ofBits (F := Ideal) .f32 0x00000000#32) - ((Scalar.ofBits (F := Ideal) .f32 0x00000000#32)
            + tapOf L ![0, 0] slices_S514x514_o0_0_S512x512 w00 (ix2 p q)
            + tapOf L ![0, 1] slices_S514x514_o0_1_S512x512 w01 (ix2 p q)
            + tapOf L ![0, 2] slices_S514x514_o0_2_S512x512 w02 (ix2 p q)
            + tapOf L ![1, 0] slices_S514x514_o1_0_S512x512 w10 (ix2 p q)
            + tapOf L ![1, 1] slices_S514x514_o1_1_S512x512 w11 (ix2 p q)
            + tapOf L ![1, 2] slices_S514x514_o1_2_S512x512 w12 (ix2 p q)
            + tapOf L ![2, 0] slices_S514x514_o2_0_S512x512 w20 (ix2 p q)
            + tapOf L ![2, 1] slices_S514x514_o2_1_S512x512 w21 (ix2 p q)
            + tapOf L ![2, 2] slices_S514x514_o2_2_S512x512 w22 (ix2 p q)) := rfl
    _ = -(tapSum (bordered 0 (planeOf L)) k p.val q.val) := by
        rw [tapOf_apply L 0 0 (by omega) (by omega) _ w00 p q, tapOf_apply L 0 1 (by omega) (by omega) _ w01 p q,
          tapOf_apply L 0 2 (by omega) (by omega) _ w02 p q, tapOf_apply L 1 0 (by omega) (by omega) _ w10 p q,
          tapOf_apply L 1 1 (by omega) (by omega) _ w11 p q, tapOf_apply L 1 2 (by omega) (by omega) _ w12 p q,
          tapOf_apply L 2 0 (by omega) (by omega) _ w20 p q, tapOf_apply L 2 1 (by omega) (by omega) _ w21 p q,
          tapOf_apply L 2 2 (by omega) (by omega) _ w22 p q,
          h00, h01, h02, h10, h11, h12, h20, h21, h22, hz, zero_sub]
        rfl

end Cert.ChannelStencil

end
-- ==== Proof.BlockStencil.lean ====
/-
  What one grid point leaves in its output block.

  The body's four stores are the four channels of the block, each a 1 × 1 × 512 × 512 piece through the
  rectangle at channel `ch`; its payload is `channel` of the plane loaded through that same rectangle of the
  image block and of the nine entries loaded from kernel `ch`. So the block, read at (0, ch, p, q), is minus the
  sum of the nine absolute differences between the zero-bordered plane `ch` of the image block around (p, q)
  and kernel `ch`: one function of the block index, whichever piece covers it.
-/
import proofs.«146537_j403726926589_1_alg».proof.Proof.Gen.KernelIdeal.Frame
import proofs.«146537_j403726926589_1_alg».proof.Proof.ChannelStencil
import proofs.«146537_j403726926589_1_alg».proof.Proof.BorderedTaps

noncomputable section

namespace Cert.BlockStencil

open Idealize.ShloMosaic Idealize.ShloMosaic.ValueIdx Cert.BorderedTaps Cert.ChannelStencil
open Cert.KernelIdeal Cert.KernelIdeal.Gen

/-- The block's entry at channel `ch`, row `p`, column `q`, from the image block and the kernels. -/
def blockAt (x0 : Vec Ideal S1x4x512x512 .f32) (x1 : Vec Ideal S4x1x3x3 .f32) (ch : Fin 4) (p q : Fin 512) : EReal :=
  -(tapSum (bordered 0 (fun y' : SPlane.Idx => x0 (ix4 0 ch (y' 0) (y' 1)))) (kernelOf x1 ch) p.val q.val)

/-- The block as one function of its index. -/
def blockStencil (x0 : Vec Ideal S1x4x512x512 .f32) (x1 : Vec Ideal S4x1x3x3 .f32) : S1x4x512x512.Idx → EReal :=
  fun y => blockAt x0 x1 (y 1) (y 2) (y 3)

theorem blockStencil_at (x0 : Vec Ideal S1x4x512x512 .f32) (x1 : Vec Ideal S4x1x3x3 .f32) (y : S1x4x512x512.Idx)
    (ch : Fin 4) (p q : Fin 512) (h1 : (y 1).val = ch.val) (h2 : (y 2).val = p.val) (h3 : (y 3).val = q.val) :
    blockStencil x0 x1 y = blockAt x0 x1 ch p q := by
  have e1 : (y 1 : Fin 4) = ch := Fin.ext h1
  have e2 : (y 2 : Fin 512) = p := Fin.ext h2
  have e3 : (y 3 : Fin 512) = q := Fin.ext h3
  show blockAt x0 x1 (y 1) (y 2) (y 3) = _
  rw [e1, e2, e3]

/-- An entry of kernel `ch`, loaded as a 1 × 1 × 1 × 1 vector and extracted. -/
theorem entry_apply (x1 : Vec Ideal S4x1x3x3 .f32) (ch i j : ℕ) (hch : ch < 4) (hi : i < 3) (hj : j < 3)
    (inb : ∀ a, (![ch, 0, i, j] : Fin 4 → ℕ) a + S1x1x1x1.size a ≤ S4x1x3x3.size a) :
    extractAt ![0, 0, 0, 0] (View.ld x1 (Rect.unit (s := S4x1x3x3) ![ch, 0, i, j] S1x1x1x1.size inb)) inpos_S1x1x1x1_p0_0_0_0
      = x1 (ix4 ⟨ch, hch⟩ 0 ⟨i, hi⟩ ⟨j, hj⟩) :=
  congrArg x1 (funext fun a => match a with
    | ⟨0, _⟩ => Fin.ext (by show ch + 1 * 0 = ch; omega)
    | ⟨1, _⟩ => Fin.ext (by show 0 + 1 * 0 = 0; omega)
    | ⟨2, _⟩ => Fin.ext (by show i + 1 * 0 = i; omega)
    | ⟨3, _⟩ => Fin.ext (by show j + 1 * 0 = j; omega))

/-- Plane `ch` of the image block, loaded as a 1 × 1 × 512 × 512 piece and cast to a plane. -/
theorem planeOf_ld (x0 : Vec Ideal S1x4x512x512 .f32) (ch : ℕ) (hch : ch < 4)
    (inb : ∀ a, (![0, ch, 0, 0] : Fin 4 → ℕ) a + S1x1x512x512.size a ≤ S1x4x512x512.size a) :
    planeOf (View.ld x0 (Rect.unit (s := S1x4x512x512) ![0, ch, 0, 0] S1x1x512x512.size inb))
      = fun y' : SPlane.Idx => x0 (ix4 0 ⟨ch, hch⟩ (y' 0) (y' 1)) := by
  funext y'
  obtain ⟨p', q', rfl⟩ : ∃ (p' q' : Fin 512), y' = ix2 p' q' := ⟨y' 0, y' 1, eq_ix2 y'⟩
  refine (shapeCast_apply _ shapeCasts_S1x1x512x512_S512x512 (ix2 p' q') (ix4 0 0 p' q')
    (by rw [Shape.rowMajor_val_four, Shape.rowMajor_val_two]
        show ((0 * 1 + 0) * 512 + p'.val) * 512 + q'.val = p'.val * 512 + q'.val; omega)).trans ?_
  exact congrArg x0 (funext fun a => match a with
    | ⟨0, _⟩ => Fin.ext (by show 0 + 1 * 0 = 0; omega)
    | ⟨1, _⟩ => Fin.ext (by show ch + 1 * 0 = ch; omega)
    | ⟨2, _⟩ => Fin.ext (by show 0 + 1 * p'.val = p'.val; omega)
    | ⟨3, _⟩ => Fin.ext (by show 0 + 1 * q'.val = q'.val; omega))

/-- ONE PIECE AT AN INDEX: the payload stored through the rectangle at channel `ch`, read at (0, 0, p, q), is the
    block's entry (ch, p, q). -/
theorem piece_apply (x0 : Vec Ideal S1x4x512x512 .f32) (x1 : Vec Ideal S4x1x3x3 .f32) (ch : ℕ) (hch : ch < 4)
    (inbX : ∀ a, (![0, ch, 0, 0] : Fin 4 → ℕ) a + S1x1x512x512.size a ≤ S1x4x512x512.size a)
    (i00 : ∀ a, (![ch, 0, 0, 0] : Fin 4 → ℕ) a + S1x1x1x1.size a ≤ S4x1x3x3.size a)
    (i01 : ∀ a, (![ch, 0, 0, 1] : Fin 4 → ℕ) a + S1x1x1x1.size a ≤ S4x1x3x3.size a)
    (i02 : ∀ a, (![ch, 0, 0, 2] : Fin 4 → ℕ) a + S1x1x1x1.size a ≤ S4x1x3x3.size a)
    (i10 : ∀ a, (![ch, 0, 1, 0] : Fin 4 → ℕ) a + S1x1x1x1.size a ≤ S4x1x3x3.size a)
    (i11 : ∀ a, (![ch, 0, 1, 1] : Fin 4 → ℕ) a + S1x1x1x1.size a ≤ S4x1x3x3.size a)
    (i12 : ∀ a, (![ch, 0, 1, 2] : Fin 4 → ℕ) a + S1x1x1x1.size a ≤ S4x1x3x3.size a)
    (i20 : ∀ a, (![ch, 0, 2, 0] : Fin 4 → ℕ) a + S1x1x1x1.size a ≤ S4x1x3x3.size a)
    (i21 : ∀ a, (![ch, 0, 2, 1] : Fin 4 → ℕ) a + S1x1x1x1.size a ≤ S4x1x3x3.size a)
    (i22 : ∀ a, (![ch, 0, 2, 2] : Fin 4 → ℕ) a + S1x1x1x1.size a ≤ S4x1x3x3.size a)
    (p q : Fin 512) :
    channel (View.ld x0 (Rect.unit (s := S1x4x512x512) ![0, ch, 0, 0] S1x1x512x512.size inbX))
        (View.ld x1 (Rect.unit (s := S4x1x3x3) ![ch, 0, 0, 0] S1x1x1x1.size i00))
        (View.ld x1 (Rect.unit (s := S4x1x3x3) ![ch, 0, 0, 1] S1x1x1x1.size i01))
        (View.ld x1 (Rect.unit (s := S4x1x3x3) ![ch, 0, 0, 2] S1x1x1x1.size i02))
        (View.ld x1 (Rect.unit (s := S4x1x3x3) ![ch, 0, 1, 0] S1x1x1x1.size i10))
        (View.ld x1 (Rect.unit (s := S4x1x3x3) ![ch, 0, 1, 1] S1x1x1x1.size i11))
        (View.ld x1 (Rect.unit (s := S4x1x3x3) ![ch, 0, 1, 2] S1x1x1x1.size i12))
        (View.ld x1 (Rect.unit (s := S4x1x3x3) ![ch, 0, 2, 0] S1x1x1x1.size i20))
        (View.ld x1 (Rect.unit (s := S4x1x3x3) ![ch, 0, 2, 1] S1x1x1x1.size i21))
        (View.ld x1 (Rect.unit (s := S4x1x3x3) ![ch, 0, 2, 2] S1x1x1x1.size i22)) (ix4 0 0 p q)
      = blockAt x0 x1 ⟨ch, hch⟩ p q := by
  refine (channel_apply _ _ _ _ _ _ _ _ _ _ (kernelOf x1 ⟨ch, hch⟩)
    (entry_apply x1 ch 0 0 hch (by omega) (by omega) i00) (entry_apply x1 ch 0 1 hch (by omega) (by omega) i01)
    (entry_apply x1 ch 0 2 hch (by omega) (by omega) i02) (entry_apply x1 ch 1 0 hch (by omega) (by omega) i10)
    (entry_apply x1 ch 1 1 hch (by omega) (by omega) i11) (entry_apply x1 ch 1 2 hch (by omega) (by omega) i12)
    (entry_apply x1 ch 2 0 hch (by omega) (by omega) i20) (entry_apply x1 ch 2 1 hch (by omega) (by omega) i21)
    (entry_apply x1 ch 2 2 hch (by omega) (by omega) i22) p q).trans ?_
  unfold blockAt
  rw [planeOf_ld x0 ch hch inbX]

/-- A PIECE IS THE BLOCK'S FUNCTION ON ITS RECTANGLE: a payload that is `channel` of the loads through channel `ch`'s
    rectangles, at any index `x` of the piece, is `blockStencil` at the place the rectangle puts `x`. -/
theorem piece_case (x0 : Vec Ideal S1x4x512x512 .f32) (x1 : Vec Ideal S4x1x3x3 .f32) (ch : ℕ) (hch : ch < 4)
    (inbX : ∀ a, (![0, ch, 0, 0] : Fin 4 → ℕ) a + S1x1x512x512.size a ≤ S1x4x512x512.size a)
    (i00 : ∀ a, (![ch, 0, 0, 0] : Fin 4 → ℕ) a + S1x1x1x1.size a ≤ S4x1x3x3.size a)
    (i01 : ∀ a, (![ch, 0, 0, 1] : Fin 4 → ℕ) a + S1x1x1x1.size a ≤ S4x1x3x3.size a)
    (i02 : ∀ a, (![ch, 0, 0, 2] : Fin 4 → ℕ) a + S1x1x1x1.size a ≤ S4x1x3x3.size a)
    (i10 : ∀ a, (![ch, 0, 1, 0] : Fin 4 → ℕ) a + S1x1x1x1.size a ≤ S4x1x3x3.size a)
    (i11 : ∀ a, (![ch, 0, 1, 1] : Fin 4 → ℕ) a + S1x1x1x1.size a ≤ S4x1x3x3.size a)
    (i12 : ∀ a, (![ch, 0, 1, 2] : Fin 4 → ℕ) a + S1x1x1x1.size a ≤ S4x1x3x3.size a)
    (i20 : ∀ a, (![ch, 0, 2, 0] : Fin 4 → ℕ) a + S1x1x1x1.size a ≤ S4x1x3x3.size a)
    (i21 : ∀ a, (![ch, 0, 2, 1] : Fin 4 → ℕ) a + S1x1x1x1.size a ≤ S4x1x3x3.size a)
    (i22 : ∀ a, (![ch, 0, 2, 2] : Fin 4 → ℕ) a + S1x1x1x1.size a ≤ S4x1x3x3.size a)
    (pay : FVec Ideal S1x1x512x512 .f32)
    (hpay : pay = channel (View.ld x0 (Rect.unit (s := S1x4x512x512) ![0, ch, 0, 0] S1x1x512x512.size inbX))
        (View.ld x1 (Rect.unit (s := S4x1x3x3) ![ch, 0, 0, 0] S1x1x1x1.size i00))
        (View.ld x1 (Rect.unit (s := S4x1x3x3) ![ch, 0, 0, 1] S1x1x1x1.size i01))
        (View.ld x1 (Rect.unit (s := S4x1x3x3) ![ch, 0, 0, 2] S1x1x1x1.size i02))
        (View.ld x1 (Rect.unit (s := S4x1x3x3) ![ch, 0, 1, 0] S1x1x1x1.size i10))
        (View.ld x1 (Rect.unit (s := S4x1x3x3) ![ch, 0, 1, 1] S1x1x1x1.size i11))
        (View.ld x1 (Rect.unit (s := S4x1x3x3) ![ch, 0, 1, 2] S1x1x1x1.size i12))
        (View.ld x1 (Rect.unit (s := S4x1x3x3) ![ch, 0, 2, 0] S1x1x1x1.size i20))
        (View.ld x1 (Rect.unit (s := S4x1x3x3) ![ch, 0, 2, 1] S1x1x1x1.size i21))
        (View.ld x1 (Rect.unit (s := S4x1x3x3) ![ch, 0, 2, 2] S1x1x1x1.size i22)))
    (x : S1x1x512x512.Idx) :
    pay x = blockStencil x0 x1 ((Rect.unit (s := S1x4x512x512) ![0, ch, 0, 0] S1x1x512x512.size inbX).emb x) := by
  obtain ⟨a0, a1, p, q, rfl⟩ : ∃ (a0 a1 : Fin 1) (p q : Fin 512), x = ix4 a0 a1 p q := ⟨x 0, x 1, x 2, x 3, eq_ix4 x⟩
  obtain rfl : a0 = 0 := Subsingleton.elim _ _
  obtain rfl : a1 = 0 := Subsingleton.elim _ _
  subst hpay
  refine (piece_apply x0 x1 ch hch inbX i00 i01 i02 i10 i11 i12 i20 i21 i22 p q).trans ?_
  exact (blockStencil_at x0 x1 _ ⟨ch, hch⟩ p q (by show ch + 1 * 0 = ch; omega)
    (by show 0 + 1 * p.val = p.val; omega) (by show 0 + 1 * q.val = q.val; omega)).symm

/-- THE BLOCK after the body: the canon of the four stored pieces is `blockStencil` at every index, each piece
    being the restriction of that one function to its rectangle and the four rectangles covering the block. -/
theorem out_apply (x0 : Vec Ideal S1x4x512x512 .f32) (x1 : Vec Ideal S4x1x3x3 .f32) (y : S1x4x512x512.Idx) :
    out0_2 (F := Ideal) x0 x1 y = blockStencil x0 x1 y := by
  unfold out0_2
  refine View.canon_apply_of_pieces (Val := Elt Ideal) (blockStencil x0 x1) _ ?_ y (cover0_2 _ _ _ _ y)
  refine List.forall_mem_cons.2 ⟨?_, List.forall_mem_cons.2 ⟨?_, List.forall_mem_cons.2 ⟨?_,
    List.forall_mem_cons.2 ⟨?_, fun _ h => absurd h List.not_mem_nil⟩⟩⟩⟩
  · exact piece_case x0 x1 3 (by omega) _ _ _ _ _ _ _ _ _ _ _ (payload_ch3 _ _ _ _ _ _ _ _ _ _)
  · exact piece_case x0 x1 2 (by omega) _ _ _ _ _ _ _ _ _ _ _ (payload_ch2 _ _ _ _ _ _ _ _ _ _)
  · exact piece_case x0 x1 1 (by omega) _ _ _ _ _ _ _ _ _ _ _ (payload_ch1 _ _ _ _ _ _ _ _ _ _)
  · exact piece_case x0 x1 0 (by omega) _ _ _ _ _ _ _ _ _ _ _ (payload_ch0 _ _ _ _ _ _ _ _ _ _)

end Cert.BlockStencil

end
-- ==== Proof.ArrayStencil.lean ====
/-
  From the blocks to the array.

  The grid has one axis of 32 points; point `t` stages image `t` of the stack (a 1 × 4 × 512 × 512 block at
  block index (t, 0, 0, 0)), the whole stack of kernels, and writes back block (t, 0, 0, 0) of the result. So the
  image block at (0, ch, p, q) is the stack at (t, ch, p, q), the kernel block is the kernels, and what point `t`
  writes back is block `t` of the stencil of the two argument arrays. Every index of the result lies in the block
  of the point named by its first coordinate, so after the run the result array is the stencil.
-/
import proofs.«146537_j403726926589_1_alg».proof.Proof.Gen.KernelIdeal.Value
import proofs.«146537_j403726926589_1_alg».proof.Proof.BlockStencil

noncomputable section

namespace Cert.ArrayStencil

open Idealize.ShloMosaic Idealize.ShloMosaic.ValueIdx Idealize.ShloMosaic.TcCoe Idealize.SL.Sem
open Cert.BorderedTaps Cert.BlockStencil
open Cert.KernelIdeal Cert.KernelIdeal.Gen
open Idealize.ShloMosaic.Pipeline (Dat)

variable (m : (ℓ : Loc nD τ sig) → Buf (Elt Ideal) ℓ) (ρ : Dev nD → PrngReg)

/-- The index maps, decided over the 32 grid points: the image window moves with the result window along the
    first axis, every other block index is zero, and the first is below 32. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (1 : Fin 4) = 0 ∧ win0_2.index t (2 : Fin 4) = 0 ∧ win0_2.index t (3 : Fin 4) = 0
    ∧ win0_2.index t (0 : Fin 4) < 32 :=
  (by decide +kernel : ∀ t : Fin grid0.N, _)

/-- Every image is some point's. -/
theorem idx_onto : ∀ b : Fin 32, ∃ t : Fin cfg0.N, win0_2.index t (0 : Fin 4) = b.val :=
  (by decide +kernel : ∀ b : Fin 32, ∃ t : Fin grid0.N, win0_2.index t (0 : Fin 4) = b.val)

/-- The stencil of an image block and the kernels is the stencil of the arrays at the block's place: image `b`. -/
theorem blockStencil_eq_stencil (A0 : SImages.Idx → EReal) (A1 : SKernels.Idx → EReal)
    (x0 : Vec Ideal S1x4x512x512 .f32) (x1 : Vec Ideal S4x1x3x3 .f32) (b : Fin 32)
    (hx0 : ∀ (ch : Fin 4) (p q : Fin 512), x0 (ix4 0 ch p q) = A0 (ix4 b ch p q)) (hx1 : ∀ k, x1 k = A1 k)
    (y : S1x4x512x512.Idx) (i : SImages.Idx) (h0 : (i 0).val = b.val) (h1 : (i 1).val = (y 1).val)
    (h2 : (i 2).val = (y 2).val) (h3 : (i 3).val = (y 3).val) :
    blockStencil x0 x1 y = stencil A0 A1 i := by
  obtain ⟨a0, ch, p, q, rfl⟩ : ∃ (a0 : Fin 1) (ch : Fin 4) (p q : Fin 512), y = ix4 a0 ch p q :=
    ⟨y 0, y 1, y 2, y 3, eq_ix4 y⟩
  have hi : i = ix4 b ch p q := funext fun a => match a with
    | ⟨0, _⟩ => Fin.ext h0
    | ⟨1, _⟩ => Fin.ext h1
    | ⟨2, _⟩ => Fin.ext h2
    | ⟨3, _⟩ => Fin.ext h3
  subst hi
  refine (blockStencil_at x0 x1 _ ch p q rfl rfl rfl).trans ?_
  have hp : (fun y' : SPlane.Idx => x0 (ix4 0 ch (y' 0) (y' 1))) = plane A0 b ch :=
    funext fun y' => hx0 ch (y' 0) (y' 1)
  have hk : kernelOf x1 ch = kernelOf A1 ch := funext fun i => funext fun j => hx1 _
  unfold blockAt
  rw [hp, hk]
  rfl

/-- WHAT POINT `t` WRITES BACK is block `t` of the stencil of the two argument arrays. -/
theorem flushed_eq (c : Dev nD) (t : Fin cfg0.N) :
    (dats m 0 c).flushed 2 t
      = ((cfg0.win 2).blk t).view.read (Elt Ideal) (stencil (V m c main_arg0) (V m c main_arg1)) := by
  rw [Cert.KernelIdeal.Value.flushed2]
  obtain ⟨e00, e01, e02, e03, e10, e11, e12, e13, e21, e22, e23, hb⟩ := idx_facts t
  funext y
  show out0_2 (iblk m c 0 t) (iblk m c 1 t) y
    = stencil (V m c main_arg0) (V m c main_arg1) (((cfg0.win 2).blk t).view.emb y)
  refine (out_apply (iblk m c 0 t) (iblk m c 1 t) y).trans ?_
  have hy0 : (y 0).val < 1 := (y 0).isLt
  refine blockStencil_eq_stencil (V m c main_arg0) (V m c main_arg1) (iblk m c 0 t) (iblk m c 1 t)
    ⟨win0_2.index t (0 : Fin 4), hb⟩ ?_ ?_ y (((cfg0.win 2).blk t).view.emb y) ?_ ?_ ?_ ?_
  · -- the image block at (0, ch, p, q) is the stack of images at (t, ch, p, q)
    intro ch p q
    show V m c main_arg0 (((cfg0.win 0).blk t).view.emb (ix4 0 ch p q)) = V m c main_arg0 (ix4 ⟨win0_2.index t (0 : Fin 4), hb⟩ ch p q)
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 4 + 1 * ch.val = ch.val; omega
    | ⟨2, _⟩ => show win0_0.index t (2 : Fin 4) * 512 + 1 * p.val = p.val; omega
    | ⟨3, _⟩ => show win0_0.index t (3 : Fin 4) * 512 + 1 * q.val = q.val; omega
  · -- the kernel block is the kernels
    intro k
    show V m c main_arg1 (((cfg0.win 1).blk t).view.emb k) = V m c main_arg1 k
    refine congrArg (V m c main_arg1) (funext fun a => Fin.ext ?_)
    match a with
    | ⟨0, _⟩ => show win0_1.index t (0 : Fin 4) * 4 + 1 * (k 0).val = (k 0).val; omega
    | ⟨1, _⟩ => show win0_1.index t (1 : Fin 4) * 1 + 1 * (k 1).val = (k 1).val; omega
    | ⟨2, _⟩ => show win0_1.index t (2 : Fin 4) * 3 + 1 * (k 2).val = (k 2).val; omega
    | ⟨3, _⟩ => show win0_1.index t (3 : Fin 4) * 3 + 1 * (k 3).val = (k 3).val; omega
  · show win0_2.index t (0 : Fin 4) * 1 + 1 * (y 0).val = win0_2.index t (0 : Fin 4); omega
  · show win0_2.index t (1 : Fin 4) * 4 + 1 * (y 1).val = (y 1).val; omega
  · show win0_2.index t (2 : Fin 4) * 512 + 1 * (y 2).val = (y 2).val; omega
  · show win0_2.index t (3 : Fin 4) * 512 + 1 * (y 3).val = (y 3).val; omega

/-- An index of the result is in point `t`'s block iff each coordinate is in the block's range on its axis. -/
theorem mem_blk (t : Fin cfg0.N) (i : S32x4x512x512.Idx) :
    i ∈ ((cfg0.win 2).blk t).view.set ↔ ∀ a : Fin 4, win0_2.index t a * S1x4x512x512.size a ≤ (i a).val
      ∧ (i a).val < win0_2.index t a * S1x4x512x512.size a + S1x4x512x512.size a := by
  show i ∈ ((View.whole main_v0).slice (win0_2.rect t)).set ↔ _
  rw [View.set_slice_whole, Rect.mem_set_unit]
  exact Iff.rfl

/-- Every index of the result is in the block of the point its first coordinate names. -/
theorem cover (i : S32x4x512x512.Idx) :
    ∃ t : Fin cfg0.N, (cfg0.win 2).flush t = true ∧ i ∈ ((cfg0.win 2).blk t).view.set := by
  obtain ⟨t, ht⟩ := idx_onto ⟨(i 0).val, (i 0).isLt⟩
  obtain ⟨e00, e01, e02, e03, e10, e11, e12, e13, e21, e22, e23, hb⟩ := idx_facts t
  have ht' : win0_2.index t (0 : Fin 4) = (i 0).val := ht
  have h1 : (i 1).val < 4 := (i 1).isLt
  have h2 : (i 2).val < 512 := (i 2).isLt
  have h3 : (i 3).val < 512 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE RESULT ARRAY after the run is the stencil of the two argument arrays as launched. -/
theorem final (c : Dev nD) :
    (dats m 0 c).arrAt 2 cfg0.N
      = stencil (m ((c : Thread nD τ).loc main_arg0)) (m ((c : Thread nD τ).loc main_arg1)) :=
  (dats m 0 c).arrAt_eq_of_cover 2 (stencil (V m c main_arg0) (V m c main_arg1)) (fun t _ => flushed_eq m c t) cover

/-- THE KERNEL'S RUN, READ: every weakly fair execution terminates with the result at the stencil of the arguments
    and the arguments unchanged. -/
theorem run : θ_run defs (onTc (τ := τ) (main (F := Ideal))) ⟨m, fun _ => 0, ρ⟩ fun r => ∀ c : Dev nD,
      r.2.mem ((c : Thread nD τ).loc main_v0)
          = stencil (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.ArrayStencil

end
-- ==== Proof.ReferenceStencil.lean ====
/-
  The reference's result is the stencil.

  The reference pads the stack of images by one zero on each side of its last two axes, and then, tap by tap in
  row-major order, takes the 512 × 512 window of the padded stack at the tap's offset, subtracts the tap's entry
  of each channel's kernel (cut out of the kernels, reshaped to one entry per channel and broadcast over images,
  rows and columns), takes the absolute value and adds it to an accumulator that starts at zero; the result is
  the accumulator negated. Read at (b, c, p, q) that is, term for term, minus the sum of the nine absolute
  differences between the zero-bordered plane (b, c) around (p, q) and kernel c.
-/
import proofs.«146537_j403726926589_1_alg».proof.Proof.Gen.ReferenceIdeal.Read
import proofs.«146537_j403726926589_1_alg».proof.Proof.BorderedTaps
import Idealize.ShloMosaic.Lib.KernelVsHost

noncomputable section

namespace Cert.ReferenceStencil

open Idealize.ShloMosaic Idealize.ShloMosaic.ValueIdx Cert.BorderedTaps
open Cert.ReferenceIdeal Cert.ReferenceIdeal.Gen Cert.ReferenceIdeal.Read

/-- Entry (i, j) of every channel's kernel, cut out, reshaped to one entry per channel and broadcast over images, rows
    and columns, read at (b, c, p, q): entry (i, j) of kernel c. -/
theorem kernel_entry_apply (w : SKernels.Idx → EReal) (i j : ℕ) (hi : i < 3) (hj : j < 3)
    (hs : SKernels.Slices ![0, 0, i, j] S4x1x1x1) (hc : S4x1x1x1.ShapeCasts S4)
    (hb1 : S4.BroadcastsInDim S1x4x1x1 ![1]) (hb2 : S1x4x1x1.BroadcastsInDim SImages ![0, 1, 2, 3])
    (b : Fin 32) (c : Fin 4) (p q : Fin 512) :
    broadcastInDim SImages ![0, 1, 2, 3] hb2
        (broadcastInDim S1x4x1x1 ![1] hb1 (shapeCast S4 (extractStridedSlice S4x1x1x1 ![0, 0, i, j] w hs) hc)) (ix4 b c p q)
      = w (ix4 c 0 ⟨i, hi⟩ ⟨j, hj⟩) := by
  refine (broadcastInDim_apply _ hb2 _ (ix4 b c p q) (ix4 0 c 0 0) (fun a => match a with
    | ⟨0, _⟩ => by show 0 = if (1 : Nat) = 1 then 0 else b.val; rw [if_pos rfl]
    | ⟨1, _⟩ => by show c.val = if (4 : Nat) = 1 then 0 else c.val; rw [if_neg (by decide)]
    | ⟨2, _⟩ => by show 0 = if (1 : Nat) = 1 then 0 else p.val; rw [if_pos rfl]
    | ⟨3, _⟩ => by show 0 = if (1 : Nat) = 1 then 0 else q.val; rw [if_pos rfl])).trans ?_
  refine (broadcastInDim_apply _ hb1 _ (ix4 0 c 0 0) (ix1 c) (fun a => match a with
    | ⟨0, _⟩ => by show c.val = if (4 : Nat) = 1 then 0 else c.val; rw [if_neg (by decide)])).trans ?_
  refine (shapeCast_apply _ hc (ix1 c) (ix4 c 0 0 0)
    (by rw [Shape.rowMajor_val_four, Shape.rowMajor_val_one]; show ((c.val * 1 + 0) * 1 + 0) * 1 + 0 = c.val; omega)).trans ?_
  exact extractStridedSlice_apply ![0, 0, i, j] w hs (ix4 c 0 0 0) (ix4 c 0 ⟨i, hi⟩ ⟨j, hj⟩) (fun a => match a with
    | ⟨0, _⟩ => by show c.val = 0 + c.val; omega
    | ⟨1, _⟩ => by show 0 = 0 + 0; omega
    | ⟨2, _⟩ => by show i = i + 0; omega
    | ⟨3, _⟩ => by show j = j + 0; omega)

/-- THE REFERENCE'S VALUE: its result term, as a function of the two arguments, is the stencil. -/
theorem reference_eq (x0 : SImages.Idx → EReal) (x1 : SKernels.Idx → EReal) :
    val_main_v74 (F := Ideal) x0 x1 = stencil x0 x1 := by
  funext idx
  obtain ⟨b, c, p, q, rfl⟩ : ∃ (b : Fin 32) (c : Fin 4) (p q : Fin 512), idx = ix4 b c p q :=
    ⟨idx 0, idx 1, idx 2, idx 3, eq_ix4 idx⟩
  -- the accumulator starts at zero, and the padding value is zero
  have hz : val_main_v1 (F := Ideal) (ix4 b c p q) = 0 := Ideal.ofBits_zero_f32
  have hv : val_main_call0_v0 (F := Ideal) (Shape.Idx.first h_S_) = 0 := sitofp_zero (φ := .f32)
  -- the nine windows of the padded stack
  have P00 : val_main_v5 (F := Ideal) x0 (ix4 b c p q) = bordered 0 (plane x0 b c) (0 + p.val) (0 + q.val) := by
    rw [← hv]; exact pad_window x0 _ _ _ 0 0 (by omega) (by omega) _ b c p q
  have P01 : val_main_v13 (F := Ideal) x0 (ix4 b c p q) = bordered 0 (plane x0 b c) (0 + p.val) (1 + q.val) := by
    rw [← hv]; exact pad_window x0 _ _ _ 0 1 (by omega) (by omega) _ b c p q
  have P02 : val_main_v21 (F := Ideal) x0 (ix4 b c p q) = bordered 0 (plane x0 b c) (0 + p.val) (2 + q.val) := by
    rw [← hv]; exact pad_window x0 _ _ _ 0 2 (by omega) (by omega) _ b c p q
  have P10 : val_main_v29 (F := Ideal) x0 (ix4 b c p q) = bordered 0 (plane x0 b c) (1 + p.val) (0 + q.val) := by
    rw [← hv]; exact pad_window x0 _ _ _ 1 0 (by omega) (by omega) _ b c p q
  have P11 : val_main_v37 (F := Ideal) x0 (ix4 b c p q) = bordered 0 (plane x0 b c) (1 + p.val) (1 + q.val) := by
    rw [← hv]; exact pad_window x0 _ _ _ 1 1 (by omega) (by omega) _ b c p q
  have P12 : val_main_v45 (F := Ideal) x0 (ix4 b c p q) = bordered 0 (plane x0 b c) (1 + p.val) (2 + q.val) := by
    rw [← hv]; exact pad_window x0 _ _ _ 1 2 (by omega) (by omega) _ b c p q
  have P20 : val_main_v53 (F := Ideal) x0 (ix4 b c p q) = bordered 0 (plane x0 b c) (2 + p.val) (0 + q.val) := by
    rw [← hv]; exact pad_window x0 _ _ _ 2 0 (by omega) (by omega) _ b c p q
  have P21 : val_main_v61 (F := Ideal) x0 (ix4 b c p q) = bordered 0 (plane x0 b c) (2 + p.val) (1 + q.val) := by
    rw [← hv]; exact pad_window x0 _ _ _ 2 1 (by omega) (by omega) _ b c p q
  have P22 : val_main_v69 (F := Ideal) x0 (ix4 b c p q) = bordered 0 (plane x0 b c) (2 + p.val) (2 + q.val) := by
    rw [← hv]; exact pad_window x0 _ _ _ 2 2 (by omega) (by omega) _ b c p q
  -- the nine kernel entries
  have W00 : val_main_v6 (F := Ideal) x1 (ix4 b c p q) = kernelOf x1 c 0 0 :=
    kernel_entry_apply x1 0 0 (by omega) (by omega) _ _ _ _ b c p q
  have W01 : val_main_v14 (F := Ideal) x1 (ix4 b c p q) = kernelOf x1 c 0 1 :=
    kernel_entry_apply x1 0 1 (by omega) (by omega) _ _ _ _ b c p q
  have W02 : val_main_v22 (F := Ideal) x1 (ix4 b c p q) = kernelOf x1 c 0 2 :=
    kernel_entry_apply x1 0 2 (by omega) (by omega) _ _ _ _ b c p q
  have W10 : val_main_v30 (F := Ideal) x1 (ix4 b c p q) = kernelOf x1 c 1 0 :=
    kernel_entry_apply x1 1 0 (by omega) (by omega) _ _ _ _ b c p q
  have W11 : val_main_v38 (F := Ideal) x1 (ix4 b c p q) = kernelOf x1 c 1 1 :=
    kernel_entry_apply x1 1 1 (by omega) (by omega) _ _ _ _ b c p q
  have W12 : val_main_v46 (F := Ideal) x1 (ix4 b c p q) = kernelOf x1 c 1 2 :=
    kernel_entry_apply x1 1 2 (by omega) (by omega) _ _ _ _ b c p q
  have W20 : val_main_v54 (F := Ideal) x1 (ix4 b c p q) = kernelOf x1 c 2 0 :=
    kernel_entry_apply x1 2 0 (by omega) (by omega) _ _ _ _ b c p q
  have W21 : val_main_v62 (F := Ideal) x1 (ix4 b c p q) = kernelOf x1 c 2 1 :=
    kernel_entry_apply x1 2 1 (by omega) (by omega) _ _ _ _ b c p q
  have W22 : val_main_v70 (F := Ideal) x1 (ix4 b c p q) = kernelOf x1 c 2 2 :=
    kernel_entry_apply x1 2 2 (by omega) (by omega) _ _ _ _ b c p q
  -- the pointwise stages, written out, then each window and entry replaced
  calc val_main_v74 (F := Ideal) x0 x1 (ix4 b c p q)
      = -(val_main_v1 (F := Ideal) (ix4 b c p q)
          + absDiff (val_main_v5 (F := Ideal) x0 (ix4 b c p q)) (val_main_v6 (F := Ideal) x1 (ix4 b c p q))
          + absDiff (val_main_v13 (F := Ideal) x0 (ix4 b c p q)) (val_main_v14 (F := Ideal) x1 (ix4 b c p q))
          + absDiff (val_main_v21 (F := Ideal) x0 (ix4 b c p q)) (val_main_v22 (F := Ideal) x1 (ix4 b c p q))
          + absDiff (val_main_v29 (F := Ideal) x0 (ix4 b c p q)) (val_main_v30 (F := Ideal) x1 (ix4 b c p q))
          + absDiff (val_main_v37 (F := Ideal) x0 (ix4 b c p q)) (val_main_v38 (F := Ideal) x1 (ix4 b c p q))
          + absDiff (val_main_v45 (F := Ideal) x0 (ix4 b c p q)) (val_main_v46 (F := Ideal) x1 (ix4 b c p q))
          + absDiff (val_main_v53 (F := Ideal) x0 (ix4 b c p q)) (val_main_v54 (F := Ideal) x1 (ix4 b c p q))
          + absDiff (val_main_v61 (F := Ideal) x0 (ix4 b c p q)) (val_main_v62 (F := Ideal) x1 (ix4 b c p q))
          + absDiff (val_main_v69 (F := Ideal) x0 (ix4 b c p q)) (val_main_v70 (F := Ideal) x1 (ix4 b c p q))) := rfl
    _ = -(tapSum (bordered 0 (plane x0 b c)) (kernelOf x1 c) p.val q.val) := by
        rw [hz, P00, P01, P02, P10, P11, P12, P20, P21, P22, W00, W01, W02, W10, W11, W12, W20, W21, W22]
        rfl

end Cert.ReferenceStencil

end
-- ==== Proof.lean ====
/-
  The kernel and the reference both compute the depthwise L1-distance stencil

      out[b, c, p, q] = - Σ over the 3 × 3 taps (i, j) of | xpad[b, c, p + i, q + j] - w[c, 0, i, j] |

  where xpad is the stack of images with a border of zeros one entry thick on its last two axes. The reference
  pads the whole stack once and accumulates the nine absolute differences over whole arrays, starting from zero,
  the taps in row-major order, and negates. The kernel walks the 32 images, one grid point each; for each of an
  image's four channels it borders the channel's plane with zeros by two concatenations, accumulates the same nine
  absolute differences in the same order from zero, and stores zero minus the sum. Index by index the two are the
  same nine terms added in the same order (Proof/BorderedTaps.lean states the stencil; Proof/ReferenceStencil.lean
  reads the reference's run as it; Proof/ChannelStencil.lean, Proof/BlockStencil.lean and Proof/ArrayStencil.lean
  read the kernel's run as it), and the one law between them, 0 - s = -s, holds of every extended real, so the
  inputs' finiteness is never used. The idealization rewrote nothing, so there is nothing to preserve.
-/
import proofs.«146537_j403726926589_1_alg».proof.Defs
import proofs.«146537_j403726926589_1_alg».proof.Proof.Gen.Kernel
import proofs.«146537_j403726926589_1_alg».proof.Proof.Gen.Kernel.Skeleton
import proofs.«146537_j403726926589_1_alg».proof.Proof.Gen.Kernel.Launch
import proofs.«146537_j403726926589_1_alg».proof.Proof.Gen.Kernel.Points
import proofs.«146537_j403726926589_1_alg».proof.Proof.Gen.Kernel.Frame
import proofs.«146537_j403726926589_1_alg».proof.Proof.Gen.KernelIdeal
import proofs.«146537_j403726926589_1_alg».proof.Proof.Gen.KernelIdeal.Skeleton
import proofs.«146537_j403726926589_1_alg».proof.Proof.Gen.KernelIdeal.Launch
import proofs.«146537_j403726926589_1_alg».proof.Proof.Gen.KernelIdeal.Points
import proofs.«146537_j403726926589_1_alg».proof.Proof.Gen.KernelIdeal.Frame
import proofs.«146537_j403726926589_1_alg».proof.Proof.Gen.ReferenceIdeal
import proofs.«146537_j403726926589_1_alg».proof.Proof.Gen.Pre_finite_inputs
import proofs.«146537_j403726926589_1_alg».proof.Proof.Gen.KernelIdeal.Value
import proofs.«146537_j403726926589_1_alg».proof.Proof.Gen.ReferenceIdeal.Run
import proofs.«146537_j403726926589_1_alg».proof.Proof.Gen.ReferenceIdeal.Read
import proofs.«146537_j403726926589_1_alg».proof.Proof.ArrayStencil
import proofs.«146537_j403726926589_1_alg».proof.Proof.ReferenceStencil
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the stencil of the arguments, and the arguments agree. -/
theorem algebraic : Cert.algebraic_KernelIdeal_ReferenceIdeal := by
  intro m ρ m' ρ' _ hagree
  refine ⟨fun c => Cert.BorderedTaps.stencil (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.ArrayStencil.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.ReferenceStencil.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
